-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x20 : Shape := ⟨2, ![2097152, 20]⟩
abbrev S2097152x8 : Shape := ⟨2, ![2097152, 8]⟩
abbrev S_ : Shape := ⟨0, ![]⟩

class Facts : Prop where
  bcast_S_S2097152x20 : S_.BroadcastsInDim S2097152x20 (![] : Fin 0 → Fin S2097152x20.rank)
  reducesTo_S2097152x20_S_d0_1 : S2097152x20.ReducesTo [0, 1] S_
  h_S_ : 0 < S_.numel
  bcast_S_S2097152x8 : S_.BroadcastsInDim S2097152x8 (![] : Fin 0 → Fin S2097152x8.rank)
  reducesTo_S2097152x8_S_d0_1 : S2097152x8.ReducesTo [0, 1] S_

variable [Facts]

def fn {F : FTy → Type} [FloatOps F] (main_arg0 : FVec F S2097152x20 .f32) (main_arg1 : FVec F S2097152x8 .f32) : IVec S_ 1 :=
  let main_v0 : FVec F S2097152x20 .f32 := Host.absf main_arg0
  let main_cst : FVec F S_ .f32 := constant S_ .f32 0x7F800000#32
  let main_v1 : FVec F S2097152x20 .f32 := broadcastInDim S2097152x20 ![] bcast_S_S2097152x20 main_cst
  let main_v2 : IVec S2097152x20 1 := cmpf .olt main_v0 main_v1
  let main_c : IVec S_ 1 := constantI S_ 1 1#1
  let main_v3 : IVec S_ 1 := (fun x v => Host.reduce IntOp.andi x v reducesTo_S2097152x20_S_d0_1 h_S_) main_v2 main_c
  let main_v4 : FVec F S2097152x8 .f32 := Host.absf main_arg1
  let main_cst_0 : FVec F S_ .f32 := constant S_ .f32 0x7F800000#32
  let main_v5 : FVec F S2097152x8 .f32 := broadcastInDim S2097152x8 ![] bcast_S_S2097152x8 main_cst_0
  let main_v6 : IVec S2097152x8 1 := cmpf .olt main_v4 main_v5
  let main_c_1 : IVec S_ 1 := constantI S_ 1 1#1
  let main_v7 : IVec S_ 1 := (fun x v => Host.reduce IntOp.andi x v reducesTo_S2097152x8_S_d0_1 h_S_) main_v6 main_c_1
  let main_v8 : IVec S_ 1 := andi main_v3 main_v7
  main_v8
-- ==== Kernel.lean ====
abbrev S2097152x20 : Shape := ⟨2, ![2097152, 20]⟩
abbrev S2097152x8 : Shape := ⟨2, ![2097152, 8]⟩
abbrev S8192x20 : Shape := ⟨2, ![8192, 20]⟩
abbrev S8192x8 : Shape := ⟨2, ![8192, 8]⟩
abbrev S8192 : Shape := ⟨1, ![8192]⟩
abbrev S8192x1 : Shape := ⟨2, ![8192, 1]⟩

abbrev nBuf : Space → Nat
  | .hbm => 3
  | .vmem => 6
  | .smem => 0
  | _ => 0

abbrev bufTy : (tb : Table) → Fin (tcTables nBuf tb) → BufTy
  | .hbm, ⟨0, _⟩ => ⟨S2097152x20, .f32⟩
  | .hbm, ⟨1, _⟩ => ⟨S2097152x8, .f32⟩
  | .hbm, ⟨2, _⟩ => ⟨S2097152x20, .f32⟩
  | .local _ .vmem, ⟨0, _⟩ => ⟨S8192x20, .f32⟩
  | .local _ .vmem, ⟨1, _⟩ => ⟨S8192x20, .f32⟩
  | .local _ .vmem, ⟨2, _⟩ => ⟨S8192x8, .f32⟩
  | .local _ .vmem, ⟨3, _⟩ => ⟨S8192x8, .f32⟩
  | .local _ .vmem, ⟨4, _⟩ => ⟨S8192x20, .f32⟩
  | .local _ .vmem, ⟨5, _⟩ => ⟨S8192x20, .f32⟩
  | _, _ => ⟨S2097152x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x20_S8192x20_0_0 : ∀ a, (![0, 0] : Fin 2 → Nat) a + S8192x20.size a ≤ S8192x20.size a
  h_S8192x20 : 0 < S8192x20.numel
  inb_S8192x8_S8192x8_0_0 : ∀ a, (![0, 0] : Fin 2 → Nat) a + S8192x8.size a ≤ S8192x8.size a
  h_S8192x8 : 0 < S8192x8.numel
  reduces_S8192x20_S8192 : S8192x20.Reduces [1] S8192
  shapeCasts_S8192_S8192x1 : S8192.ShapeCasts S8192x1
  broadcasts_S8192x1_S8192x20 : S8192x1.Broadcasts S8192x20
  iota_S8192x20_d1_w32 : S8192x20.Iotas .tc 32 [1]
  slices_S8192x20_o0_1_S8192x1 : S8192x20.Slices ![0, 1] S8192x1
  slices_S8192x20_o0_2_S8192x1 : S8192x20.Slices ![0, 2] S8192x1
  shapeCasts_S8192x1_S8192x1 : S8192x1.ShapeCasts S8192x1
  slices_S8192x20_o0_3_S8192x1 : S8192x20.Slices ![0, 3] S8192x1
  slices_S8192x20_o0_11_S8192x1 : S8192x20.Slices ![0, 11] S8192x1
  slices_S8192x20_o0_17_S8192x1 : S8192x20.Slices ![0, 17] S8192x1
  slices_S8192x20_o0_18_S8192x1 : S8192x20.Slices ![0, 18] S8192x1
  slices_S8192x8_o0_3_S8192x1 : S8192x8.Slices ![0, 3] S8192x1
  slices_S8192x8_o0_1_S8192x1 : S8192x8.Slices ![0, 1] S8192x1
  slices_S8192x8_o0_5_S8192x1 : S8192x8.Slices ![0, 5] S8192x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x20.size a ≤ S2097152x20.size a
  hwx0_0 : ∀ i : grid0.Coords, EltTy.bits .f32 = 32 ∨ (Rect.block (s := S2097152x20) S8192x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S2097152x8.size a
  hwx0_1 : ∀ i : grid0.Coords, EltTy.bits .f32 = 32 ∨ (Rect.block (s := S2097152x8) S8192x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x20.size a ≤ S2097152x20.size a
  hwx0_2 : ∀ i : grid0.Coords, EltTy.bits .f32 = 32 ∨ (Rect.block (s := S2097152x20) S8192x20.size (cc0_transform_2 i) (hinb0_2 i)).WholeWords (EltTy.packing .f32)

variable [Facts₀]

abbrev win0_0 : Pipeline.Window sig grid0 :=
  Pipeline.Window.ofSpec (Memref.whole main_arg0) S8192x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x20 : Shape := ⟨2, ![2097152, 20]⟩
abbrev S2097152x8 : Shape := ⟨2, ![2097152, 8]⟩
abbrev S_ : Shape := ⟨0, ![]⟩
abbrev S2097152 : Shape := ⟨1, ![2097152]⟩
abbrev S2097152x1 : Shape := ⟨2, ![2097152, 1]⟩
abbrev S1 : Shape := ⟨1, ![1]⟩

abbrev nBuf : Space → Nat
  | .hbm => 142
  | .vmem => 0
  | .smem => 0
  | _ => 0

abbrev hbmTy0_0 (i : Nat) : BufTy := match i % 128 with
  | 0 => ⟨S2097152x20, .f32⟩
  | 1 => ⟨S2097152x8, .f32⟩
  | 2 => ⟨S_, .f32⟩
  | 3 => ⟨S2097152, .f32⟩
  | 4 => ⟨S_, .f32⟩
  | 5 => ⟨S2097152, .f32⟩
  | 6 => ⟨S2097152, .f32⟩
  | 7 => ⟨S2097152x1, .f32⟩
  | 8 => ⟨S2097152x20, .f32⟩
  | 9 => ⟨S2097152x20, .f32⟩
  | 10 => ⟨S2097152x20, .f32⟩
  | 11 => ⟨S_, .f32⟩
  | 12 => ⟨S2097152, .f32⟩
  | 13 => ⟨S2097152x1, .f32⟩
  | 14 => ⟨S2097152x20, .f32⟩
  | 15 => ⟨S2097152x20, .f32⟩
  | 16 => ⟨S2097152x1, .f32⟩
  | 17 => ⟨S2097152, .f32⟩
  | 18 => ⟨S2097152x1, .f32⟩
  | 19 => ⟨S2097152, .f32⟩
  | 20 => ⟨S2097152, .f32⟩
  | 21 => ⟨S_, .f32⟩
  | 22 => ⟨S2097152, .f32⟩
  | 23 => ⟨S2097152, .i1⟩
  | 24 => ⟨S_, .f32⟩
  | 25 => ⟨S_, .f32⟩
  | 26 => ⟨S2097152, .f32⟩
  | 27 => ⟨S2097152, .f32⟩
  | 28 => ⟨S2097152, .f32⟩
  | 29 => ⟨S2097152, .f32⟩
  | 30 => ⟨S_, .i32⟩
  | 31 => ⟨S1, .i32⟩
  | 32 => ⟨S2097152x20, .f32⟩
  | 33 => ⟨S2097152, .f32⟩
  | 34 => ⟨S_, .i32⟩
  | 35 => ⟨S1, .i32⟩
  | 36 => ⟨S2097152x20, .f32⟩
  | 37 => ⟨S2097152x1, .f32⟩
  | 38 => ⟨S2097152, .f32⟩
  | 39 => ⟨S2097152x1, .f32⟩
  | 40 => ⟨S2097152, .f32⟩
  | 41 => ⟨S2097152, .f32⟩
  | 42 => ⟨S_, .f32⟩
  | 43 => ⟨S2097152, .f32⟩
  | 44 => ⟨S2097152, .i1⟩
  | 45 => ⟨S_, .f32⟩
  | 46 => ⟨S_, .f32⟩
  | 47 => ⟨S2097152, .f32⟩
  | 48 => ⟨S2097152, .f32⟩
  | 49 => ⟨S2097152, .f32⟩
  | 50 => ⟨S2097152, .f32⟩
  | 51 => ⟨S_, .i32⟩
  | 52 => ⟨S1, .i32⟩
  | 53 => ⟨S2097152x20, .f32⟩
  | 54 => ⟨S2097152, .f32⟩
  | 55 => ⟨S_, .i32⟩
  | 56 => ⟨S1, .i32⟩
  | 57 => ⟨S2097152x20, .f32⟩
  | 58 => ⟨S2097152x1, .f32⟩
  | 59 => ⟨S2097152, .f32⟩
  | 60 => ⟨S2097152x1, .f32⟩
  | 61 => ⟨S2097152, .f32⟩
  | 62 => ⟨S2097152, .f32⟩
  | 63 => ⟨S_, .f32⟩
  | 64 => ⟨S2097152, .f32⟩
  | 65 => ⟨S2097152, .i1⟩
  | 66 => ⟨S_, .f32⟩
  | 67 => ⟨S_, .f32⟩
  | 68 => ⟨S2097152, .f32⟩
  | 69 => ⟨S2097152, .f32⟩
  | 70 => ⟨S2097152, .f32⟩
  | 71 => ⟨S2097152, .f32⟩
  | 72 => ⟨S_, .i32⟩
  | 73 => ⟨S1, .i32⟩
  | 74 => ⟨S2097152x20, .f32⟩
  | 75 => ⟨S2097152, .f32⟩
  | 76 => ⟨S_, .i32⟩
  | 77 => ⟨S1, .i32⟩
  | 78 => ⟨S2097152x20, .f32⟩
  | 79 => ⟨S2097152x1, .f32⟩
  | 80 => ⟨S2097152, .f32⟩
  | 81 => ⟨S2097152x1, .f32⟩
  | 82 => ⟨S2097152, .f32⟩
  | 83 => ⟨S2097152x1, .f32⟩
  | 84 => ⟨S2097152, .f32⟩
  | 85 => ⟨S_, .f32⟩
  | 86 => ⟨S2097152, .f32⟩
  | 87 => ⟨S2097152, .i1⟩
  | 88 => ⟨S_, .f32⟩
  | 89 => ⟨S_, .f32⟩
  | 90 => ⟨S_, .f32⟩
  | 91 => ⟨S2097152, .f32⟩
  | 92 => ⟨S2097152, .f32⟩
  | 93 => ⟨S2097152, .f32⟩
  | 94 => ⟨S_, .i32⟩
  | 95 => ⟨S1, .i32⟩
  | 96 => ⟨S2097152x20, .f32⟩
  | 97 => ⟨S_, .f32⟩
  | 98 => ⟨S_, .f32⟩
  | 99 => ⟨S_, .f32⟩
  | 100 => ⟨S2097152, .f32⟩
  | 101 => ⟨S2097152, .f32⟩
  | 102 => ⟨S2097152, .f32⟩
  | 103 => ⟨S_, .i32⟩
  | 104 => ⟨S1, .i32⟩
  | 105 => ⟨S2097152x20, .f32⟩
  | 106 => ⟨S_, .f32⟩
  | 107 => ⟨S2097152, .f32⟩
  | 108 => ⟨S2097152, .i1⟩
  | 109 => ⟨S_, .f32⟩
  | 110 => ⟨S_, .f32⟩
  | 111 => ⟨S_, .f32⟩
  | 112 => ⟨S2097152, .f32⟩
  | 113 => ⟨S2097152, .f32⟩
  | 114 => ⟨S2097152, .f32⟩
  | 115 => ⟨S_, .i32⟩
  | 116 => ⟨S1, .i32⟩
  | 117 => ⟨S2097152x20, .f32⟩
  | 118 => ⟨S_, .f32⟩
  | 119 => ⟨S2097152, .f32⟩
  | 120 => ⟨S2097152, .i1⟩
  | 121 => ⟨S_, .f32⟩
  | 122 => ⟨S_, .f32⟩
  | 123 => ⟨S_, .f32⟩
  | 124 => ⟨S2097152, .f32⟩
  | 125 => ⟨S2097152, .f32⟩
  | 126 => ⟨S2097152, .f32⟩
  | 127 => ⟨S_, .i32⟩
  | _ => ⟨S2097152x20, .f32⟩

abbrev hbmTy0_1 (i : Nat) : BufTy := match i % 128 with
  | 0 => ⟨S1, .i32⟩
  | 1 => ⟨S2097152x20, .f32⟩
  | 2 => ⟨S_, .f32⟩
  | 3 => ⟨S2097152, .f32⟩
  | 4 => ⟨S2097152, .i1⟩
  | 5 => ⟨S_, .f32⟩
  | 6 => ⟨S_, .f32⟩
  | 7 => ⟨S_, .f32⟩
  | 8 => ⟨S2097152, .f32⟩
  | 9 => ⟨S2097152, .f32⟩
  | 10 => ⟨S2097152, .f32⟩
  | 11 => ⟨S_, .i32⟩
  | 12 => ⟨S1, .i32⟩
  | 13 => ⟨S2097152x20, .f32⟩
  | _ => ⟨S2097152x20, .f32⟩

abbrev hbmTy (i : Nat) : BufTy := match i / 128 with
  | 0 => hbmTy0_0 i
  | 1 => hbmTy0_1 i
  | _ => ⟨S2097152x20, .f32⟩

abbrev bufTy : (tb : Table) → Fin (tcTables nBuf tb) → BufTy
  | .hbm, ⟨i, _⟩ => hbmTy i
  | _, _ => ⟨S2097152x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_cst_13 : Ref sig .tc := ⟨.hbm, 67, rfl⟩
abbrev main_call2_v0 : Ref sig .tc := ⟨.hbm, 68, rfl⟩
abbrev main_call2_v1 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_cst_17 : Ref sig .tc := ⟨.hbm, 88, rfl⟩
abbrev main_cst_18 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v61 : Ref sig .tc := ⟨.hbm, 93, rfl⟩
abbrev main_c_19 : Ref sig .tc := ⟨.hbm, 94, rfl⟩
abbrev main_v62 : Ref sig .tc := ⟨.hbm, 95, rfl⟩
abbrev main_v63 : Ref sig .tc := ⟨.hbm, 96, rfl⟩
abbrev main_cst_20 : Ref sig .tc := ⟨.hbm, 97, rfl⟩
abbrev main_cst_21 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v64 : Ref sig .tc := ⟨.hbm, 102, rfl⟩
abbrev main_c_22 : Ref sig .tc := ⟨.hbm, 103, rfl⟩
abbrev main_v65 : Ref sig .tc := ⟨.hbm, 104, rfl⟩
abbrev main_v66 : Ref sig .tc := ⟨.hbm, 105, rfl⟩
abbrev main_cst_23 : Ref sig .tc := ⟨.hbm, 106, rfl⟩
abbrev main_v67 : Ref sig .tc := ⟨.hbm, 107, rfl⟩
abbrev main_v68 : Ref sig .tc := ⟨.hbm, 108, rfl⟩
abbrev main_cst_24 : Ref sig .tc := ⟨.hbm, 109, rfl⟩
abbrev main_cst_25 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v69 : Ref sig .tc := ⟨.hbm, 114, rfl⟩
abbrev main_c_26 : Ref sig .tc := ⟨.hbm, 115, rfl⟩
abbrev main_v70 : Ref sig .tc := ⟨.hbm, 116, rfl⟩
abbrev main_v71 : Ref sig .tc := ⟨.hbm, 117, rfl⟩
abbrev main_cst_27 : Ref sig .tc := ⟨.hbm, 118, rfl⟩
abbrev main_v72 : Ref sig .tc := ⟨.hbm, 119, rfl⟩
abbrev main_v73 : Ref sig .tc := ⟨.hbm, 120, rfl⟩
abbrev main_cst_28 : Ref sig .tc := ⟨.hbm, 121, rfl⟩
abbrev main_cst_29 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_v74 : Ref sig .tc := ⟨.hbm, 126, rfl⟩
abbrev main_c_30 : Ref sig .tc := ⟨.hbm, 127, rfl⟩
abbrev main_v75 : Ref sig .tc := ⟨.hbm, 128, rfl⟩
abbrev main_v76 : Ref sig .tc := ⟨.hbm, 129, rfl⟩
abbrev main_cst_31 : Ref sig .tc := ⟨.hbm, 130, rfl⟩
abbrev main_v77 : Ref sig .tc := ⟨.hbm, 131, rfl⟩
abbrev main_v78 : Ref sig .tc := ⟨.hbm, 132, rfl⟩
abbrev main_cst_32 : Ref sig .tc := ⟨.hbm, 133, rfl⟩
abbrev main_cst_33 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v79 : Ref sig .tc := ⟨.hbm, 138, rfl⟩
abbrev main_c_34 : Ref sig .tc := ⟨.hbm, 139, rfl⟩
abbrev main_v80 : Ref sig .tc := ⟨.hbm, 140, rfl⟩
abbrev main_v81 : Ref sig .tc := ⟨.hbm, 141, rfl⟩

abbrev nD : Nat := 1
abbrev τ : Topo := Topo.v7x

variable {F : FTy → Type} [FloatOps F]

class Facts₀ : Prop where
  reducesTo_S2097152x20_S2097152_d1 : S2097152x20.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x20_0_1 : S2097152x1.BroadcastsInDim S2097152x20 (![0, 1] : Fin 2 → Fin S2097152x20.rank)
  slices_S2097152x20_S2097152x1_0_1 : S2097152x20.Slices ![0, 1] S2097152x1
  shapeCasts_S2097152x1_S2097152 : S2097152x1.ShapeCasts S2097152
  slices_S2097152x20_S2097152x1_0_2 : S2097152x20.Slices ![0, 2] S2097152x1
  bcast_S_S1 : S_.BroadcastsInDim S1 (![] : Fin 0 → Fin S1.rank)
  slices_S2097152x20_S2097152x1_0_3 : S2097152x20.Slices ![0, 3] S2097152x1
  slices_S2097152x20_S2097152x1_0_11 : S2097152x20.Slices ![0, 11] S2097152x1
  slices_S2097152x20_S2097152x1_0_17 : S2097152x20.Slices ![0, 17] S2097152x1
  slices_S2097152x20_S2097152x1_0_18 : S2097152x20.Slices ![0, 18] S2097152x1
  slices_S2097152x8_S2097152x1_0_3 : S2097152x8.Slices ![0, 3] S2097152x1
  slices_S2097152x8_S2097152x1_0_1 : S2097152x8.Slices ![0, 1] S2097152x1
  slices_S2097152x8_S2097152x1_0_5 : S2097152x8.Slices ![0, 5] S2097152x1
  scatter_S2097152x20_S1_S2097152_0_1_1_0_wf : ScatterDims.WF S2097152x20 S1 S2097152 [0] [1] [1] 0

variable [Facts₀]

def scatter_S2097152x20_S1_S2097152_0_1_1_0 : ScatterDims S2097152x20 S1 S2097152 where
  updateWindowDims := [0]
  insertedWindowDims := [1]
  scatterDimsToOperandDims := [1]
  indexVectorDim := 0
  wf := scatter_S2097152x20_S1_S2097152_0_1_1_0_wf

class Facts : Prop extends Facts₀ where

variable [Facts]
-- ==== Proof.RowSpec.lean ====
/-
  What one row of the result is, as a function of that row of logits and that row of vitals, over the extended
  reals; and the law that joins the two arrangements in which the two programs add the column terms.

  A row x of 20 logits gives the softmax row  p k = exp (x k − M) / Σ k' exp (x k' − M),  M = max (−∞, max k x k).
  A pair (a, b) of columns is penalised by  pen a b = 1.5 if p a · p b > 0.05, else 0  (0.05 the f32 word).
  A row s of 8 vitals gives five terms: −5 and +0.5 when s 3 < 85, −3 when s 3 > 160, +0.3 when s 1 > 130,
  +0.5 when s 5 < 90 (each 0 otherwise).

  One program starts from x q and adds, one after the other, each term into ITS column only (eleven steps, in
  the order 1, 2, 3, 11, 17, 18, 2, 1, 1, 4, 5). The other forms, for every column q at once, the sum from 0 of
  ten terms each masked to its column (the two column-1 vitals terms added first), negating a penalty as 0 − pen,
  and adds that sum to x q. A masked term off its column is 0, so a step "add v at column c" is "add the term
  masked to c" at every column; after that the two sides are one sum of the same terms in the same order, up to
  association, 0 + a = a and 0 − a = −a. All of it holds on the extended reals as it stands: no finiteness is
  used.
-/
import Idealize.ShloMosaic.PureOps.Ideal.Laws

noncomputable section

namespace Cert.RowSpec

open Idealize.ShloMosaic

/-- An f32 word read as an extended real. -/
abbrev lit (b : BitVec 32) : EReal := Ideal.ofBits .f32 b

theorem lit_zero : lit 0x00000000#32 = 0 := Ideal.ofBits_zero_f32

/-! ## The softmax row and the penalties -/

/-- The row maximum as both programs take it: from −∞, then once more against −∞. -/
def rowMax (x : Fin 20 → EReal) : EReal :=
  max (lit 0xFF800000#32) ((Finset.univ : Finset (Fin 20)).fold max (lit 0xFF800000#32) x)

/-- The shifted exponentials' sum. -/
def expSum (x : Fin 20 → EReal) : EReal := ∑ k : Fin 20, Ideal.exp (x k - rowMax x)

/-- The softmax of the row at column k. -/
def prob (x : Fin 20 → EReal) (k : Fin 20) : EReal := Ideal.div (Ideal.exp (x k - rowMax x)) (expSum x)

/-- 1.5 when the product of two probabilities exceeds 0.05, else 0. -/
def penalty (a b : EReal) : EReal :=
  Scalar.select (Ideal.cmp .ogt (a * b) (lit 0x3D4CCCCD#32)) (lit 0x3FC00000#32) (lit 0x00000000#32)

def pen (x : Fin 20 → EReal) (a b : Fin 20) : EReal := penalty (prob x a) (prob x b)

/-! ## The vitals' terms -/

def lowBp (bp : EReal) : BitVec 1 := Ideal.cmp .olt bp (lit 0x42AA0000#32)
/-- −5 when the pressure is below 85. -/
def tLow2 (bp : EReal) : EReal := Scalar.select (lowBp bp) (lit 0xC0A00000#32) (lit 0x00000000#32)
/-- +0.5 when the pressure is below 85. -/
def tLow1 (bp : EReal) : EReal := Scalar.select (lowBp bp) (lit 0x3F000000#32) (lit 0x00000000#32)
/-- −3 when the pressure is above 160. -/
def tHigh1 (bp : EReal) : EReal :=
  Scalar.select (Ideal.cmp .ogt bp (lit 0x43200000#32)) (lit 0xC0400000#32) (lit 0x00000000#32)
/-- +0.3 when the heart rate is above 130. -/
def tHr (hr : EReal) : EReal :=
  Scalar.select (Ideal.cmp .ogt hr (lit 0x43020000#32)) (lit 0x3E99999A#32) (lit 0x00000000#32)
/-- +0.5 when the oxygen saturation is below 90. -/
def tSpo (o : EReal) : EReal :=
  Scalar.select (Ideal.cmp .olt o (lit 0x42B40000#32)) (lit 0x3F000000#32) (lit 0x00000000#32)

/-! ## The two arrangements -/

/-- Add v into column c only: the step of the program that updates one column at a time. -/
def addAt (q : Fin 20) (c : Nat) (acc v : EReal) : EReal := if q.val = c then acc + v else acc

/-- The term v masked to column c: v there, the zero word elsewhere. -/
def only (q : Fin 20) (c : Nat) (v : EReal) : EReal := if q.val = c then v else lit 0x00000000#32

/-- Column q of the row, one column update after another. -/
def stepwise (x : Fin 20 → EReal) (s : Fin 8 → EReal) (q : Fin 20) : EReal :=
  addAt q 5 (addAt q 4 (addAt q 1 (addAt q 1 (addAt q 2 (addAt q 18 (addAt q 17 (addAt q 11 (addAt q 3
    (addAt q 2 (addAt q 1 (x q) (-pen x 1 2)) (-pen x 1 2)) (-pen x 3 11)) (-pen x 3 11)) (-pen x 17 18))
    (-pen x 17 18)) (tLow2 (s 3))) (tLow1 (s 3))) (tHigh1 (s 3))) (tHr (s 1))) (tSpo (s 5))

/-- Column q of the row, as the logit plus the sum from the zero word of the masked terms. -/
def masked (x : Fin 20 → EReal) (s : Fin 8 → EReal) (q : Fin 20) : EReal :=
  x q + ((((((((((lit 0x00000000#32 + only q 1 (lit 0x00000000#32 - pen x 1 2)) + only q 2 (lit 0x00000000#32 - pen x 1 2))
    + only q 3 (lit 0x00000000#32 - pen x 3 11)) + only q 11 (lit 0x00000000#32 - pen x 3 11))
    + only q 17 (lit 0x00000000#32 - pen x 17 18)) + only q 18 (lit 0x00000000#32 - pen x 17 18))
    + only q 2 (tLow2 (s 3))) + only q 1 (tLow1 (s 3) + tHigh1 (s 3))) + only q 4 (tHr (s 1))) + only q 5 (tSpo (s 5)))

/-! ## The law -/

/-- Adding v at column c is adding, at every column, v masked to c. -/
theorem addAt_eq (q : Fin 20) (c : Nat) (acc v : EReal) : addAt q c acc v = acc + only q c v := by
  unfold addAt only
  by_cases h : q.val = c
  · rw [if_pos h, if_pos h]
  · rw [if_neg h, if_neg h, lit_zero, add_zero]

/-- A masked sum is the sum of the masked terms. -/
theorem only_add (q : Fin 20) (c : Nat) (a b : EReal) : only q c (a + b) = only q c a + only q c b := by
  unfold only
  by_cases h : q.val = c
  · rw [if_pos h, if_pos h, if_pos h]
  · rw [if_neg h, if_neg h, if_neg h, lit_zero, add_zero]

/-- The two arrangements give the same column. -/
theorem masked_eq_stepwise (x : Fin 20 → EReal) (s : Fin 8 → EReal) (q : Fin 20) : masked x s q = stepwise x s q := by
  unfold masked stepwise
  simp only [addAt_eq, only_add, lit_zero, zero_sub, zero_add, add_assoc]

end Cert.RowSpec

end
-- ==== Proof.LibScatterFold.lean ====
/-
  The host's one-index scatter as a fold in which each step rewrites at most one entry, read at an entry.

  The host's scatter with body f is a left fold over the update indices in row-major order: update index n names
  at most one entry of the operand (its result index, or none when that falls outside), and the step replaces that
  entry by f applied to it and to update n. For ANY map g from update indices to optional entries:
  an entry no update names keeps the operand's value (foldl_miss); an entry named by exactly one update k of a
  duplicate-free list ends at f (operand's value) (update k) (foldl_hit). With scatter_eq_foldl, which restates the
  host's scatter as that fold for any shapes and dimension numbers, a scatter whose result-index map is injective on
  the updates it keeps is read at an entry by computing that map alone; the fold is never evaluated.
-/
import Idealize.ShloMosaic.PureOps.ShapeOps

namespace Cert.ScatterFold

open Idealize.ShloMosaic

section Fold
variable {ι κ α : Type} [DecidableEq ι]

/-- One step of the fold: update index n rewrites the entry g n names, when it names one. -/
def stepAt (g : κ → Option ι) (f : α → α → α) (upd : κ → α) (r : ι → α) (n : κ) : ι → α :=
  match g n with
  | some i => fun i' => if i' = i then f (r i) (upd n) else r i'
  | none => r

/-- A step whose update names another entry leaves this one alone. -/
theorem stepAt_ne (g : κ → Option ι) (f : α → α → α) (upd : κ → α) (r : ι → α) (n : κ) (i' : ι)
    (h : g n ≠ some i') : stepAt g f upd r n i' = r i' := by
  unfold stepAt
  cases hg : g n with
  | none => rfl
  | some i =>
    have hne : i' ≠ i := fun e => h (by rw [hg, e])
    exact if_neg hne

/-- A step whose update names this entry combines it with the update. -/
theorem stepAt_eq (g : κ → Option ι) (f : α → α → α) (upd : κ → α) (r : ι → α) (n : κ) (i' : ι)
    (h : g n = some i') : stepAt g f upd r n i' = f (r i') (upd n) := by
  unfold stepAt
  cases hg : g n with
  | none => rw [hg] at h; cases h
  | some i =>
    have e : i = i' := Option.some.inj (hg.symm.trans h)
    subst e
    exact if_pos rfl

/-- An entry that no update of the list names is what it was before the fold. -/
theorem foldl_miss (g : κ → Option ι) (f : α → α → α) (upd : κ → α) (i' : ι) :
    ∀ (l : List κ) (x : ι → α), (∀ n ∈ l, g n ≠ some i') → l.foldl (stepAt g f upd) x i' = x i'
  | [], _, _ => rfl
  | a :: t, x, h => by
    rw [List.foldl_cons, foldl_miss g f upd i' t _ (fun n hn => h n (List.mem_cons_of_mem _ hn)),
      stepAt_ne g f upd x a i' (h a (List.mem_cons.2 (Or.inl rfl)))]

/-- An entry that exactly one update k of a duplicate-free list names ends at the body applied once. -/
theorem foldl_hit (g : κ → Option ι) (f : α → α → α) (upd : κ → α) (i' : ι) (k : κ) (hk : g k = some i') :
    ∀ (l : List κ) (x : ι → α), l.Nodup → k ∈ l → (∀ n ∈ l, g n = some i' → n = k) →
      l.foldl (stepAt g f upd) x i' = f (x i') (upd k)
  | [], _, _, hm, _ => absurd hm (by simp)
  | a :: t, x, hnd, hm, huniq => by
    rw [List.foldl_cons]
    have hnd' := List.nodup_cons.1 hnd
    by_cases hak : a = k
    · subst hak
      rw [foldl_miss g f upd i' t _ (fun n hn e => hnd'.1 (huniq n (List.mem_cons_of_mem _ hn) e ▸ hn)),
        stepAt_eq g f upd x a i' hk]
    · have hkt : k ∈ t := (List.mem_cons.1 hm).resolve_left (fun e => hak e.symm)
      rw [foldl_hit g f upd i' k hk t _ hnd'.2 hkt (fun n hn => huniq n (List.mem_cons_of_mem _ hn)),
        stepAt_ne g f upd x a i' (fun e => hak (huniq a (List.mem_cons.2 (Or.inl rfl)) e))]

/-- The host's scatter is this fold over the update indices in row-major order. -/
theorem scatter_eq_foldl {s si u : Shape} {w : Nat} (d : ScatterDims s si u) (f : α → α → α) (x : s.Idx → α)
    (idx : IVec si w) (upd : u.Idx → α) :
    Host.scatter d f x idx upd
      = (List.finRange u.numel).foldl
          (stepAt (fun n => d.resultIdx? (u.rowMajor.symm n) idx) f (fun n => upd (u.rowMajor.symm n))) x := by
  unfold Host.scatter
  refine congrArg (fun F => (List.finRange u.numel).foldl F x) (funext fun r => funext fun n => ?_)
  unfold stepAt
  beta_reduce
  cases d.resultIdx? (u.rowMajor.symm n) idx with
  | none => rfl
  | some i =>
    dsimp only <;> (funext i'; by_cases h : i' = i <;> simp [h])

end Fold

end Cert.ScatterFold
-- ==== Proof.ColumnScatter.lean ====
/-
  A scatter that adds a column vector into ONE column of a matrix, read at an entry.

  The host's scatter is a left fold over the update indices: each update index names at most one entry of the
  operand, and the fold replaces that entry by the body applied to it and to the update. Two facts about such
  a fold, for any map from update indices to entries: an entry that no update names keeps the operand's value,
  and an entry named by exactly one update ends at the body applied once to the operand's value and that
  update. For the dimension numbers of a column update of a 2097152 x 20 matrix — the one window axis is the
  rows, the column axis is inserted, and the single scatter index is the column number c — update index r
  names the entry (r, c); distinct rows name distinct entries. So entry (r, q) of the result is the operand's
  entry combined with update r when q = c, and the operand's entry otherwise.
-/
import proofs.«131227_j47399259079459_1_alg».proof.Proof.LibScatterFold
import Idealize.ShloMosaic.PureOps.ShapeOps
import Idealize.ShloMosaic.Lib.ValueIdx

namespace Cert.ColumnScatter

open Idealize.ShloMosaic Idealize.ShloMosaic.ValueIdx Cert.ScatterFold

/-! ## The column update's dimension numbers -/

abbrev Mat : Shape := ⟨2, ![2097152, 20]⟩
abbrev Col : Shape := ⟨1, ![2097152]⟩
abbrev One : Shape := ⟨1, ![1]⟩

/-- The dimension numbers of adding a column: window axis the rows, column axis inserted and scattered. -/
abbrev colDims (wf : ScatterDims.WF Mat One Col [0] [1] [1] 0) : ScatterDims Mat One Col :=
  ⟨[0], [1], [1], 0, wf⟩

/-- The one index of a one-element index vector. -/
abbrev i0 : One.Idx := ix1 (0 : Fin 1)

theorem one_idx_eq (k : One.Idx) : k = i0 :=
  funext fun a => match a with
    | ⟨0, _⟩ => Fin.ext (by have h : (k 0).val < 1 := (k 0).isLt; show (k 0).val = 0; omega)

variable {w : Nat} (wf : ScatterDims.WF Mat One Col [0] [1] [1] 0)

theorem start_row (j : Col.Idx) (idx : IVec One w) : (colDims wf).start j idx (0 : Fin 2) = 0 := by
  have h : (0 : Fin 2) ∉ (colDims wf).scatterDimsToOperandDims := by
    show (0 : Fin 2) ∉ ([1] : List (Fin 2)); decide
  unfold ScatterDims.start
  rw [dif_neg h]

theorem start_col (j : Col.Idx) (idx : IVec One w) : (colDims wf).start j idx (1 : Fin 2) = (idx i0).toInt := by
  have h : (1 : Fin 2) ∈ (colDims wf).scatterDimsToOperandDims := by
    show (1 : Fin 2) ∈ ([1] : List (Fin 2)); decide
  unfold ScatterDims.start
  rw [dif_pos h]
  exact congrArg (fun k => (idx k).toInt) (one_idx_eq _)

theorem window_row (j : Col.Idx) : (colDims wf).window j (0 : Fin 2) = (j 0).val := by
  have h : (0 : Fin 2) ∈ (colDims wf).sKept := by
    show (0 : Fin 2) ∈ Mat.kept ([1] : List (Fin 2)); decide
  unfold ScatterDims.window
  rw [dif_pos h]
  refine congrArg (fun k => (j k).val) (Fin.ext ?_)
  have hk := ((colDims wf).updateWindowDims[(colDims wf).sKept.idxOf (0 : Fin 2)]'(by
    rw [(colDims wf).window_length]; exact List.idxOf_lt_length_iff.2 h)).isLt
  show _ = 0
  have : Col.rank = 1 := rfl
  omega

theorem window_col (j : Col.Idx) : (colDims wf).window j (1 : Fin 2) = 0 := by
  have h : (1 : Fin 2) ∉ (colDims wf).sKept := by
    show (1 : Fin 2) ∉ Mat.kept ([1] : List (Fin 2)); decide
  unfold ScatterDims.window
  rw [dif_neg h]

/-- Update index j of a column update at column c names the entry (j, c). -/
theorem resultIdx_col (j : Col.Idx) (idx : IVec One w) (c : Fin 20) (hc : (idx i0).toInt = (c.val : Int)) :
    (colDims wf).resultIdx? j idx = some (ix2 (j 0) c) := by
  have hj : (j 0).val < 2097152 := (j 0).isLt
  have hcl : c.val < 20 := c.isLt
  have h : ∀ a : Fin Mat.rank, 0 ≤ (colDims wf).start j idx a + (colDims wf).window j a
      ∧ (colDims wf).start j idx a + (colDims wf).window j a < Mat.size a := by
    intro a
    match a with
    | ⟨0, _⟩ =>
      show 0 ≤ (colDims wf).start j idx (0 : Fin 2) + (colDims wf).window j (0 : Fin 2)
        ∧ (colDims wf).start j idx (0 : Fin 2) + ((colDims wf).window j (0 : Fin 2) : Int) < (2097152 : Nat)
      rw [start_row, window_row]; omega
    | ⟨1, _⟩ =>
      show 0 ≤ (colDims wf).start j idx (1 : Fin 2) + (colDims wf).window j (1 : Fin 2)
        ∧ (colDims wf).start j idx (1 : Fin 2) + ((colDims wf).window j (1 : Fin 2) : Int) < (20 : Nat)
      rw [start_col, window_col, hc]; omega
  unfold ScatterDims.resultIdx?
  rw [dif_pos h]
  refine congrArg some (funext fun a => Fin.ext ?_)
  match a with
  | ⟨0, _⟩ =>
    show ((colDims wf).start j idx (0 : Fin 2) + (colDims wf).window j (0 : Fin 2)).toNat = (j 0).val
    rw [start_row, window_row]; omega
  | ⟨1, _⟩ =>
    show ((colDims wf).start j idx (1 : Fin 2) + (colDims wf).window j (1 : Fin 2)).toNat = c.val
    rw [start_col, window_col, hc]; omega

/-! ## The column update read at an entry -/

/-- Entry (r, q) after a column update at column c with body f: the operand's entry combined with update r
    when q is that column, the operand's entry otherwise. -/
theorem scatter_col_apply {α : Type} (f : α → α → α) (x : Mat.Idx → α) (idx : IVec One w) (upd : Col.Idx → α)
    (c : Fin 20) (hc : (idx i0).toInt = (c.val : Int)) (r : Fin 2097152) (q : Fin 20) :
    Host.scatter (colDims wf) f x idx upd (ix2 r q)
      = if q = c then f (x (ix2 r q)) (upd (ix1 r)) else x (ix2 r q) := by
  rw [scatter_eq_foldl]
  by_cases hq : q = c
  · subst hq
    rw [if_pos rfl]
    refine (foldl_hit _ f _ (ix2 r q) (Col.rowMajor (ix1 r)) ?_ _ x (List.nodup_finRange _) (List.mem_finRange _) ?_).trans ?_
    · show (colDims wf).resultIdx? (Col.rowMajor.symm (Col.rowMajor (ix1 r))) idx = _
      rw [Equiv.symm_apply_apply, resultIdx_col wf _ idx q hc]
      rfl
    · intro n _ e
      rw [resultIdx_col wf _ idx q hc] at e
      have e0 : (Col.rowMajor.symm n) 0 = r := congrFun (Option.some.inj e) (0 : Fin 2)
      refine (Equiv.symm_apply_eq _).1 ?_
      exact (eq_ix1 _).trans (congrArg ix1 e0)
    · exact congrArg (fun k => f (x (ix2 r q)) (upd k)) (Equiv.symm_apply_apply _ _)
  · rw [if_neg hq]
    refine foldl_miss _ f _ (ix2 r q) _ x (fun n _ e => hq ?_)
    rw [resultIdx_col wf _ idx c hc] at e
    exact (congrFun (Option.some.inj e) (1 : Fin 2)).symm

end Cert.ColumnScatter
-- ==== Proof.RefRow.lean ====
/-
  The reference, read one row at a time.

  Every stage of the reference up to the column updates depends, at row r, only on row r of the logits and
  row r of the vitals: the row maximum and the shifted exponentials' sum are reductions along the row, the
  probabilities are read at fixed columns, and the comparisons and selections are pointwise. This module reads
  those stages at row r as the row functions of the specification.
-/
import proofs.«131227_j47399259079459_1_alg».proof.Proof.Gen.ReferenceIdeal.Read
import proofs.«131227_j47399259079459_1_alg».proof.Proof.RowSpec
import proofs.«131227_j47399259079459_1_alg».proof.Proof.ColumnScatter
import Idealize.ShloMosaic.Lib.ValueIdx
import Idealize.ShloMosaic.PureOps.Ideal.Laws

noncomputable section

namespace Cert.RefRow

open Cert.ReferenceIdeal Cert.ReferenceIdeal.Read Cert.RowSpec
open Idealize.ShloMosaic Idealize.ShloMosaic.ValueIdx Idealize.ShloMosaic.TcCoe
open Cert.ReferenceIdeal.Facts₀

variable (x0 : FVec Ideal S2097152x20 .f32) (x1 : FVec Ideal S2097152x8 .f32) (r : Fin 2097152)

/-- Row r of the logits and of the vitals. -/
abbrev xrow : Fin 20 → EReal := fun k => x0 (ix2 r k)
abbrev srow : Fin 8 → EReal := fun k => x1 (ix2 r k)

/-! ## Index bookkeeping: where each layout stage reads -/

theorem at_row_v4 (k : Fin 20) : idx_main_v3 (idx_main_v4 (ix2 r k)) = ix1 r :=
  funext fun a => match a with | ⟨0, _⟩ => rfl
theorem at_row_v9 (k : Fin 20) : idx_main_v8 (idx_main_v9 (ix2 r k)) = ix1 r :=
  funext fun a => match a with | ⟨0, _⟩ => rfl
theorem at_row_v7 (k : Fin 20) : idx_main_v7 (ix1 r) k = ix2 r k :=
  funext fun a => match a with | ⟨0, _⟩ => rfl | ⟨1, _⟩ => rfl

/-! ## The softmax row -/

/-- The reference's row maximum is the specification's. -/
theorem rowMax_ref : val_main_v2 (F := Ideal) x0 (ix1 r) = rowMax (xrow x0 r) := by
  rw [val_main_v2_apply, val_main_v1_apply, val_main_cst_0_apply]
  unfold val_main_v0
  rw [Host.reduce_eq_fold_single FloatOps.maximumf x0 _ reducesTo_S2097152x20_S2097152_d1 (by decide) h_S_]
  have e : (x0 ∘ (Shape.Reduces.lift (by decide : S2097152x20.Reduces [1] S2097152) (ix1 r))) = xrow x0 r :=
    funext fun k => congrArg x0 (funext fun a => Fin.ext (by match a with | ⟨0, _⟩ => rfl | ⟨1, _⟩ => rfl))
  rw [e]
  rfl

/-- The reference's shifted exponential at (r, k). -/
theorem exp_ref (k : Fin 20) : val_main_v6 (F := Ideal) x0 (ix2 r k) = Ideal.exp (x0 (ix2 r k) - rowMax (xrow x0 r)) := by
  rw [val_main_v6_apply, val_main_v5_apply, val_main_v4_apply, val_main_v3_apply, at_row_v4, rowMax_ref]
  rfl

/-- The reference's sum of them along row r. -/
theorem expSum_ref : val_main_v7 (F := Ideal) x0 (ix1 r) = expSum (xrow x0 r) := by
  rw [val_main_v7_apply, val_main_cst_1_apply]
  simp only [at_row_v7, exp_ref]
  unfold expSum
  rw [Ideal.ofBits_def, Ideal.ofBits_zero_f32, zero_add]

/-- The reference's probability at (r, k). -/
theorem prob_ref (k : Fin 20) : val_main_v10 (F := Ideal) x0 (ix2 r k) = prob (xrow x0 r) k := by
  rw [val_main_v10_apply, val_main_v9_apply, val_main_v8_apply, at_row_v9, expSum_ref, exp_ref]
  rfl

/-! ## The penalties: products of probabilities at fixed columns -/

theorem at_p1 : idx_main_v11 (idx_main_v12 (ix1 r)) = ix2 r (1 : Fin 20) :=
  funext fun a => match a with | ⟨0, _⟩ => Fin.ext (Nat.div_one _) | ⟨1, _⟩ => rfl
theorem at_p2 : idx_main_v13 (idx_main_v14 (ix1 r)) = ix2 r (2 : Fin 20) :=
  funext fun a => match a with | ⟨0, _⟩ => Fin.ext (Nat.div_one _) | ⟨1, _⟩ => rfl
theorem at_p3 : idx_main_v25 (idx_main_v26 (ix1 r)) = ix2 r (3 : Fin 20) :=
  funext fun a => match a with | ⟨0, _⟩ => Fin.ext (Nat.div_one _) | ⟨1, _⟩ => rfl
theorem at_p11 : idx_main_v27 (idx_main_v28 (ix1 r)) = ix2 r (11 : Fin 20) :=
  funext fun a => match a with | ⟨0, _⟩ => Fin.ext (Nat.div_one _) | ⟨1, _⟩ => rfl
theorem at_p17 : idx_main_v39 (idx_main_v40 (ix1 r)) = ix2 r (17 : Fin 20) :=
  funext fun a => match a with | ⟨0, _⟩ => Fin.ext (Nat.div_one _) | ⟨1, _⟩ => rfl
theorem at_p18 : idx_main_v41 (idx_main_v42 (ix1 r)) = ix2 r (18 : Fin 20) :=
  funext fun a => match a with | ⟨0, _⟩ => Fin.ext (Nat.div_one _) | ⟨1, _⟩ => rfl

theorem pen12_ref : val_main_v18 (F := Ideal) x0 (ix1 r) = pen (xrow x0 r) 1 2 := by
  rw [val_main_v18_apply, val_main_v17_apply, val_main_v15_apply, val_main_v12_apply, val_main_v11_apply, at_p1,
    val_main_v14_apply, val_main_v13_apply, at_p2, prob_ref, prob_ref, val_main_v16_apply, val_main_cst_2_apply,
    val_main_call0_v0_apply, val_main_cst_3_apply, val_main_call0_v1_apply, val_main_cst_4_apply]
  rfl

theorem pen311_ref : val_main_v32 (F := Ideal) x0 (ix1 r) = pen (xrow x0 r) 3 11 := by
  rw [val_main_v32_apply, val_main_v31_apply, val_main_v29_apply, val_main_v26_apply, val_main_v25_apply, at_p3,
    val_main_v28_apply, val_main_v27_apply, at_p11, prob_ref, prob_ref, val_main_v30_apply, val_main_cst_6_apply,
    val_main_call1_v0_apply, val_main_cst_7_apply, val_main_call1_v1_apply, val_main_cst_8_apply]
  rfl

theorem pen1718_ref : val_main_v46 (F := Ideal) x0 (ix1 r) = pen (xrow x0 r) 17 18 := by
  rw [val_main_v46_apply, val_main_v45_apply, val_main_v43_apply, val_main_v40_apply, val_main_v39_apply, at_p17,
    val_main_v42_apply, val_main_v41_apply, at_p18, prob_ref, prob_ref, val_main_v44_apply, val_main_cst_11_apply,
    val_main_call2_v0_apply, val_main_cst_12_apply, val_main_call2_v1_apply, val_main_cst_13_apply]
  rfl

/-! ## The vitals' terms -/

theorem at_s3 : idx_main_v53 (idx_main_v54 (ix1 r)) = ix2 r (3 : Fin 8) :=
  funext fun a => match a with | ⟨0, _⟩ => Fin.ext (Nat.div_one _) | ⟨1, _⟩ => rfl
theorem at_s1 : idx_main_v55 (idx_main_v56 (ix1 r)) = ix2 r (1 : Fin 8) :=
  funext fun a => match a with | ⟨0, _⟩ => Fin.ext (Nat.div_one _) | ⟨1, _⟩ => rfl
theorem at_s5 : idx_main_v57 (idx_main_v58 (ix1 r)) = ix2 r (5 : Fin 8) :=
  funext fun a => match a with | ⟨0, _⟩ => Fin.ext (Nat.div_one _) | ⟨1, _⟩ => rfl

theorem bp_ref : val_main_v54 (F := Ideal) x1 (ix1 r) = x1 (ix2 r (3 : Fin 8)) := by
  rw [val_main_v54_apply, val_main_v53_apply, at_s3]
theorem hr_ref : val_main_v56 (F := Ideal) x1 (ix1 r) = x1 (ix2 r (1 : Fin 8)) := by
  rw [val_main_v56_apply, val_main_v55_apply, at_s1]
theorem spo_ref : val_main_v58 (F := Ideal) x1 (ix1 r) = x1 (ix2 r (5 : Fin 8)) := by
  rw [val_main_v58_apply, val_main_v57_apply, at_s5]

theorem tLow2_ref : val_main_v61 (F := Ideal) x1 (ix1 r) = tLow2 (srow x1 r 3) := by
  rw [val_main_v61_apply, val_main_v60_apply, bp_ref, val_main_v59_apply, val_main_cst_16_apply,
    val_main_call3_v1_apply, val_main_cst_17_apply, val_main_call3_v2_apply, val_main_call3_v0_apply, val_main_cst_18_apply]
  rfl
theorem tLow1_ref : val_main_v64 (F := Ideal) x1 (ix1 r) = tLow1 (srow x1 r 3) := by
  rw [val_main_v64_apply, val_main_v60_apply, bp_ref, val_main_v59_apply, val_main_cst_16_apply,
    val_main_call4_v1_apply, val_main_cst_20_apply, val_main_call4_v2_apply, val_main_call4_v0_apply, val_main_cst_21_apply]
  rfl
theorem tHigh1_ref : val_main_v69 (F := Ideal) x1 (ix1 r) = tHigh1 (srow x1 r 3) := by
  rw [val_main_v69_apply, val_main_v68_apply, bp_ref, val_main_v67_apply, val_main_cst_23_apply,
    val_main_call5_v1_apply, val_main_cst_24_apply, val_main_call5_v2_apply, val_main_call5_v0_apply, val_main_cst_25_apply]
  rfl
theorem tHr_ref : val_main_v74 (F := Ideal) x1 (ix1 r) = tHr (srow x1 r 1) := by
  rw [val_main_v74_apply, val_main_v73_apply, hr_ref, val_main_v72_apply, val_main_cst_27_apply,
    val_main_call6_v1_apply, val_main_cst_28_apply, val_main_call6_v2_apply, val_main_call6_v0_apply, val_main_cst_29_apply]
  rfl
theorem tSpo_ref : val_main_v79 (F := Ideal) x1 (ix1 r) = tSpo (srow x1 r 5) := by
  rw [val_main_v79_apply, val_main_v78_apply, spo_ref, val_main_v77_apply, val_main_cst_31_apply,
    val_main_call7_v1_apply, val_main_cst_32_apply, val_main_call7_v2_apply, val_main_call7_v0_apply, val_main_cst_33_apply]
  rfl

/-! ## The column numbers the updates name -/

open Cert.ColumnScatter (i0) in
theorem col_v20 : ((val_main_v20 (F := Ideal)) i0).toInt = (((1 : Fin 20)).val : Int) := by
  rw [val_main_v20_apply, val_main_c_apply]; rfl
open Cert.ColumnScatter (i0) in
theorem col_v23 : ((val_main_v23 (F := Ideal)) i0).toInt = (((2 : Fin 20)).val : Int) := by
  rw [val_main_v23_apply, val_main_c_5_apply]; rfl
open Cert.ColumnScatter (i0) in
theorem col_v34 : ((val_main_v34 (F := Ideal)) i0).toInt = (((3 : Fin 20)).val : Int) := by
  rw [val_main_v34_apply, val_main_c_9_apply]; rfl
open Cert.ColumnScatter (i0) in
theorem col_v37 : ((val_main_v37 (F := Ideal)) i0).toInt = (((11 : Fin 20)).val : Int) := by
  rw [val_main_v37_apply, val_main_c_10_apply]; rfl
open Cert.ColumnScatter (i0) in
theorem col_v48 : ((val_main_v48 (F := Ideal)) i0).toInt = (((17 : Fin 20)).val : Int) := by
  rw [val_main_v48_apply, val_main_c_14_apply]; rfl
open Cert.ColumnScatter (i0) in
theorem col_v51 : ((val_main_v51 (F := Ideal)) i0).toInt = (((18 : Fin 20)).val : Int) := by
  rw [val_main_v51_apply, val_main_c_15_apply]; rfl
open Cert.ColumnScatter (i0) in
theorem col_v62 : ((val_main_v62 (F := Ideal)) i0).toInt = (((2 : Fin 20)).val : Int) := by
  rw [val_main_v62_apply, val_main_c_19_apply]; rfl
open Cert.ColumnScatter (i0) in
theorem col_v65 : ((val_main_v65 (F := Ideal)) i0).toInt = (((1 : Fin 20)).val : Int) := by
  rw [val_main_v65_apply, val_main_c_22_apply]; rfl
open Cert.ColumnScatter (i0) in
theorem col_v70 : ((val_main_v70 (F := Ideal)) i0).toInt = (((1 : Fin 20)).val : Int) := by
  rw [val_main_v70_apply, val_main_c_26_apply]; rfl
open Cert.ColumnScatter (i0) in
theorem col_v75 : ((val_main_v75 (F := Ideal)) i0).toInt = (((4 : Fin 20)).val : Int) := by
  rw [val_main_v75_apply, val_main_c_30_apply]; rfl
open Cert.ColumnScatter (i0) in
theorem col_v80 : ((val_main_v80 (F := Ideal)) i0).toInt = (((5 : Fin 20)).val : Int) := by
  rw [val_main_v80_apply, val_main_c_34_apply]; rfl

/-! ## One column update, then all eleven -/

/-- An update that adds the column vector u into column c, read at (r, q): the specification's step. -/
theorem update_ref (x : FVec Ideal S2097152x20 .f32) (idx : IVec S1 32) (u : FVec Ideal S2097152 .f32) (c : Fin 20)
    (hc : (idx Cert.ColumnScatter.i0).toInt = (c.val : Int)) (q : Fin 20) :
    Host.scatter scatter_S2097152x20_S1_S2097152_0_1_1_0 FloatOps.addf x idx u (ix2 r q)
      = addAt q c.val (x (ix2 r q)) (u (ix1 r)) := by
  refine (Cert.ColumnScatter.scatter_col_apply scatter_S2097152x20_S1_S2097152_0_1_1_0_wf
    (FloatOps.addf (F := Ideal) (φ := .f32)) x idx u c hc r q).trans ?_
  unfold addAt
  by_cases h : q = c
  · rw [if_pos h, if_pos (congrArg Fin.val h)]; rfl
  · rw [if_neg h, if_neg (fun e => h (Fin.ext e))]

/-- Entry (r, q) of the reference's result is the specification's row function, one update after another. -/
theorem result_ref (q : Fin 20) :
    val_main_v81 (F := Ideal) x0 x1 (ix2 r q) = stepwise (xrow x0 r) (srow x1 r) q := by
  unfold val_main_v81; rw [update_ref r _ _ _ 5 col_v80]
  unfold val_main_v76; rw [update_ref r _ _ _ 4 col_v75]
  unfold val_main_v71; rw [update_ref r _ _ _ 1 col_v70]
  unfold val_main_v66; rw [update_ref r _ _ _ 1 col_v65]
  unfold val_main_v63; rw [update_ref r _ _ _ 2 col_v62]
  unfold val_main_v52; rw [update_ref r _ _ _ 18 col_v51]
  unfold val_main_v49; rw [update_ref r _ _ _ 17 col_v48]
  unfold val_main_v38; rw [update_ref r _ _ _ 11 col_v37]
  unfold val_main_v35; rw [update_ref r _ _ _ 3 col_v34]
  unfold val_main_v24; rw [update_ref r _ _ _ 2 col_v23]
  unfold val_main_v21; rw [update_ref r _ _ _ 1 col_v20]
  rw [tSpo_ref, tHr_ref, tHigh1_ref, tLow1_ref, tLow2_ref]
  rw [val_main_v50_apply, val_main_v47_apply, pen1718_ref, val_main_v36_apply, val_main_v33_apply, pen311_ref,
    val_main_v22_apply, val_main_v19_apply, pen12_ref]
  rfl

end Cert.RefRow

end
-- ==== Proof.KernelRow.lean ====
/-
  The kernel's body, read one row of a block at a time.

  The body loads a block of 8192 rows of logits and of vitals whole, and stores ONE value over the whole output
  block. Every operation in that value is pointwise, a reduction along the row, a column slice, or a broadcast of a
  column back along the row; the column masks compare an iota along the row with a constant column number. So entry
  (p, q) of what the body stores depends only on row p of the two blocks, and is the specification's masked
  arrangement of that row.
-/
import proofs.«131227_j47399259079459_1_alg».proof.Proof.Gen.KernelIdeal.Frame
import proofs.«131227_j47399259079459_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelRow

open Cert.KernelIdeal Cert.KernelIdeal.Gen Cert.RowSpec
open Idealize.ShloMosaic Idealize.ShloMosaic.ValueIdx Idealize.ShloMosaic.TcCoe
open Cert.KernelIdeal.Facts₀

/-! ## Layout operations at the block's shapes -/

section Layout
variable {α : Type}

/-- A column broadcast along the row reads the column at the row. -/
theorem bcastCol (v : S8192x1.Idx → α) (h : S8192x1.Broadcasts S8192x20) (p : Fin 8192) (q : Fin 20) :
    broadcastTo S8192x20 v h (ix2 p q) = v (ix2 p (0 : Fin 1)) :=
  broadcastTo_apply v h (ix2 p q) (ix2 p (0 : Fin 1)) (fun a => match a with
    | ⟨0, _⟩ => by show p.val = if (8192 : Nat) = 1 then 0 else p.val; rw [if_neg (by decide)]
    | ⟨1, _⟩ => by show 0 = if (1 : Nat) = 1 then 0 else q.val; rw [if_pos rfl])

/-- A vector of row values seen as a column reads the row's value. -/
theorem castCol (v : S8192.Idx → α) (h : S8192.ShapeCasts S8192x1) (p : Fin 8192) (z : Fin 1) :
    shapeCast S8192x1 v h (ix2 p z) = v (ix1 p) :=
  shapeCast_apply v h (ix2 p z) (ix1 p) (by
    rw [Shape.rowMajor_val_one, Shape.rowMajor_val_two]
    have hz : z.val < 1 := z.isLt
    show p.val = p.val * 1 + z.val; omega)

/-- Column k of a 20-wide block, cut out as a column. -/
theorem sliceCol20 (k : Fin 20) (o : Nat) (hk : k.val = o) (X : S8192x20.Idx → α) (h : S8192x20.Slices ![0, o] S8192x1)
    (p : Fin 8192) (z : Fin 1) : extractStridedSlice S8192x1 ![0, o] X h (ix2 p z) = X (ix2 p k) :=
  slice2_axis1_apply o X h p z k (by have hz : z.val < 1 := z.isLt; omega)

/-- Column k of an 8-wide block, cut out as a column. -/
theorem sliceCol8 (k : Fin 8) (o : Nat) (hk : k.val = o) (X : S8192x8.Idx → α) (h : S8192x8.Slices ![0, o] S8192x1)
    (p : Fin 8192) (z : Fin 1) : extractStridedSlice S8192x1 ![0, o] X h (ix2 p z) = X (ix2 p k) :=
  slice2_axis1_apply o X h p z k (by have hz : z.val < 1 := z.isLt; omega)

/-- The iota along the row reads the column number. -/
theorem iota_at (h : S8192x20.Iotas .tc 32 [1]) (p : Fin 8192) (q : Fin 20) :
    iota .tc S8192x20 32 [1] h (ix2 p q) = BitVec.ofNat 32 q.val :=
  iota_single_apply .tc S8192x20 32 1 h (ix2 p q)

theorem cmpi_at {s : Shape} {w : Nat} (pr : CmpIPredicate) (x y : IVec s w) (i : s.Idx) :
    cmpi pr x y i = IntOp.cmpi pr (x i) (y i) := rfl

/-- Selecting on "the column number is c" is a choice on q = c. -/
theorem sel_col (q : Fin 20) (c : Nat) (hc : c < 20) (a b : α) :
    Scalar.select (IntOp.cmpi .eq (BitVec.ofNat 32 q.val) (BitVec.ofNat 32 c)) a b = if q.val = c then a else b := by
  have hq : q.val < 20 := q.isLt
  have e : IntOp.cmpi .eq (BitVec.ofNat 32 q.val) (BitVec.ofNat 32 c) = BitVec.ofBool (decide (q.val = c)) := by
    show BitVec.ofBool (BitVec.ofNat 32 q.val == BitVec.ofNat 32 c) = _
    refine congrArg BitVec.ofBool ?_
    by_cases h : q.val = c
    · rw [h]; simp
    · have hne : BitVec.ofNat 32 q.val ≠ BitVec.ofNat 32 c := fun e => h (by
        have := congrArg BitVec.toNat e
        simp only [BitVec.toNat_ofNat] at this
        omega)
      rw [beq_eq_false_iff_ne.2 hne, decide_eq_false h]
  rw [e]
  unfold Scalar.select
  by_cases h : q.val = c
  · rw [if_pos h, decide_eq_true h]; rfl
  · rw [if_neg h, decide_eq_false h]; rfl

end Layout

/-! ## Reductions along the row -/

/-- The row maximum from −∞. -/
theorem rowMaxRed (v : FVec Ideal S8192x20 .f32) (h : S8192x20.Reduces [1] S8192) (hφ : FKind.Formats .f32)
    (hacc : (0xFF800000#32 : BitVec 32) = 0xFF800000#32) (p : Fin 8192) :
    multiReduction .maximumf [1] S8192 v 0xFF800000#32 h hφ hacc (ix1 p)
      = (Finset.univ : Finset (Fin 20)).fold max (lit 0xFF800000#32) (fun k => v (ix2 p k)) := by
  refine (Ideal.multiReduction_maximumf_single v _ h hφ hacc (ix1 p)).trans ?_
  have e : (v ∘ h.lift (ix1 p)) = fun k : Fin 20 => v (ix2 p k) :=
    funext fun k => congrArg v (funext fun a => Fin.ext (by match a with | ⟨0, _⟩ => rfl | ⟨1, _⟩ => rfl))
  rw [e]; rfl

/-- The row sum. -/
theorem rowSumRed (v : FVec Ideal S8192x20 .f32) (h : S8192x20.Reduces [1] S8192) (hφ : FKind.Formats .f32)
    (hacc : (0x00000000#32 : BitVec 32) = 0x00000000#32) (p : Fin 8192) :
    multiReduction .add [1] S8192 v 0x00000000#32 h hφ hacc (ix1 p) = ∑ k : Fin 20, v (ix2 p k) := by
  refine (Ideal.multiReduction_add_single v _ h hφ hacc (ix1 p)).trans ?_
  exact Finset.sum_congr rfl fun k _ =>
    congrArg v (funext fun a => Fin.ext (by match a with | ⟨0, _⟩ => rfl | ⟨1, _⟩ => rfl))

theorem exp_at {s : Shape} (a : FVec Ideal s .f32) (i : s.Idx) : exp a i = Ideal.exp (a i) := rfl

/-! ## The softmax payload -/

/-- Row p of a block of logits. -/
abbrev brow (v0 : FVec Ideal S8192x20 .f32) (p : Fin 8192) : Fin 20 → EReal := fun k => v0 (ix2 p k)
/-- Row p of a block of vitals. -/
abbrev srow (v1 : FVec Ideal S8192x8 .f32) (p : Fin 8192) : Fin 8 → EReal := fun k => v1 (ix2 p k)

/-- The body's probabilities at (p, k) are the softmax of row p. -/
theorem prob_at (v0 : FVec Ideal S8192x20 .f32) (p : Fin 8192) (k : Fin 20) :
    k0_pay2 (F := Ideal) v0 (ix2 p k) = prob (brow v0 p) k := by
  unfold k0_pay2
  simp only [divf_apply, exp_at, subf_apply, bcastCol, castCol, maximumf_apply, broadcast_apply, Ideal.ofBits_def]
  rw [rowSumRed]
  simp only [exp_at, subf_apply, bcastCol, castCol, maximumf_apply, broadcast_apply, Ideal.ofBits_def]
  rw [rowMaxRed]
  rfl

/-! ## What the body stores, at an entry -/

theorem zero_offsets20 : (![0, 0] : Fin S8192x20.rank → Nat) = fun _ => 0 := by
  funext a; match a with | ⟨0, _⟩ => rfl | ⟨1, _⟩ => rfl
theorem zero_offsets8 : (![0, 0] : Fin S8192x8.rank → Nat) = fun _ => 0 := by
  funext a; match a with | ⟨0, _⟩ => rfl | ⟨1, _⟩ => rfl

/-- Entry (p, q) of the block the body stores is the masked arrangement of row p of the two input blocks. -/
theorem stored_at (v0 : FVec Ideal S8192x20 .f32) (v1 : FVec Ideal S8192x8 .f32) (p : Fin 8192) (q : Fin 20) :
    out0_2 (F := Ideal) v0 v1 (ix2 p q) = masked (brow v0 p) (srow v1 p) q := by
  unfold out0_2
  rw [View.canon_unit_zero zero_offsets20]
  simp only [View.ld_unit_zero (S := S8192x20) zero_offsets20, View.ld_unit_zero (S := S8192x8) zero_offsets8]
  simp only [k0_pay1, k0_pay3, k0_pay4, k0_pay5, k0_pay6, k0_pay7, k0_pay8, k0_pay9, k0_pay10, k0_pay11, k0_pay12, k0_pay13,
    addf_apply, select_apply, cmpi_at, cmpf_apply, mulf_apply, subf_apply, broadcast_apply, bcastCol, castCol,
    shapeCast_self,
    sliceCol20 1 1 rfl, sliceCol20 2 2 rfl, sliceCol20 3 3 rfl, sliceCol20 11 11 rfl, sliceCol20 17 17 rfl,
    sliceCol20 18 18 rfl, sliceCol8 3 3 rfl, sliceCol8 1 1 rfl, sliceCol8 5 5 rfl, prob_at,
    Ideal.ofBits_def, Ideal.cmpf_def]
  rw [iota_at]
  rw [sel_col q 1 (by decide), sel_col q 2 (by decide), sel_col q 3 (by decide), sel_col q 11 (by decide),
    sel_col q 17 (by decide), sel_col q 18 (by decide), sel_col q 2 (by decide), sel_col q 1 (by decide),
    sel_col q 4 (by decide), sel_col q 5 (by decide)]
  unfold masked only pen penalty tLow2 tLow1 tHigh1 tHr tSpo lowBp
  rfl

end Cert.KernelRow

end
-- ==== Proof.KernelArray.lean ====
/-
  From the blocks the grid points write back to the whole result array.

  Grid point t stages rows 8192 t … 8192 t + 8191 of both argument arrays (all columns) and writes back the same
  rows of the result. Entry (p, q) of what it writes depends only on row p of its two input blocks, which is row
  8192 t + p of the argument arrays; so what point t writes back is the restriction to its rows of ONE function
  of the argument arrays: entry (r, q) is the masked arrangement of row r of the logits and of the vitals. The 256
  row bands cover every row (row r lies in band r / 8192), so the result array is that function everywhere.
-/
import proofs.«131227_j47399259079459_1_alg».proof.Proof.Gen.KernelIdeal.Value
import proofs.«131227_j47399259079459_1_alg».proof.Proof.KernelRow
import Idealize.ShloMosaic.Lib.Pipeline.Value
import Idealize.ShloMosaic.Lib.ValueIdx

noncomputable section

namespace Cert.KernelArray

open Cert.KernelIdeal Cert.KernelIdeal.Gen Cert.RowSpec Cert.KernelRow
open Idealize.ShloMosaic Idealize.ShloMosaic.ValueIdx Idealize.ShloMosaic.TcCoe Idealize.SL.Sem
open Idealize.ShloMosaic.Pipeline (Dat)

/-- The whole result: entry (r, q) is the masked arrangement of row r of the two argument arrays. -/
def whole (a0 : FVec Ideal S2097152x20 .f32) (a1 : FVec Ideal S2097152x8 .f32) : FVec Ideal S2097152x20 .f32 :=
  fun i => masked (fun k : Fin 20 => a0 (ix2 (i 0 : Fin 2097152) k)) (fun k : Fin 8 => a1 (ix2 (i 0 : Fin 2097152) k))
    (i 1 : Fin 20)

/-- An entry of a stored block whose input blocks are band n of the argument arrays is the whole result's entry
    in that band. -/
theorem block_entry (a0 : FVec Ideal S2097152x20 .f32) (a1 : FVec Ideal S2097152x8 .f32)
    (v0 : FVec Ideal S8192x20 .f32) (v1 : FVec Ideal S8192x8 .f32) (n : Nat)
    (h0 : ∀ (p : Fin 8192) (k : Fin 20) (r : Fin 2097152), r.val = n * 8192 + p.val → v0 (ix2 p k) = a0 (ix2 r k))
    (h1 : ∀ (p : Fin 8192) (k : Fin 8) (r : Fin 2097152), r.val = n * 8192 + p.val → v1 (ix2 p k) = a1 (ix2 r k))
    (j : S8192x20.Idx) (i : S2097152x20.Idx) (hi0 : (i 0).val = n * 8192 + (j 0).val) (hi1 : (i 1).val = (j 1).val) :
    out0_2 (F := Ideal) v0 v1 j = whole a0 a1 i := by
  have hs : out0_2 (F := Ideal) v0 v1 j = masked (brow v0 (j 0)) (srow v1 (j 0)) (j 1) :=
    (congrArg (out0_2 (F := Ideal) v0 v1) (eq_ix2 j)).trans (stored_at v0 v1 (j 0) (j 1))
  rw [hs]
  unfold whole
  have e0 : brow v0 (j 0) = fun k : Fin 20 => a0 (ix2 (i 0 : Fin 2097152) k) := funext fun k => h0 (j 0) k _ hi0
  have e1 : srow v1 (j 0) = fun k : Fin 8 => a1 (ix2 (i 0 : Fin 2097152) k) := funext fun k => h1 (j 0) k _ hi0
  have e2 : (j 1 : Fin 20) = (i 1 : Fin 20) := Fin.ext hi1.symm
  rw [e0, e1, e2]

variable (m : (ℓ : Loc nD τ sig) → Buf (Elt Ideal) ℓ) (ρ : Dev nD → PrngReg)

/-- The printed index maps over the 256 grid points: every window's block row is the point's number, its block
    column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- What point t writes back is band t of the whole result of the argument arrays as the region finds them. -/
theorem flushed_eq (c : Dev nD) (t : Fin cfg0.N) :
    (dats m 0 c).flushed 2 t
      = ((cfg0.win 2).blk t).view.read (Elt Ideal) (whole (V m c main_arg0) (V m c main_arg1)) := by
  rw [Cert.KernelIdeal.Value.flushed2]
  obtain ⟨e00, e01, e10, e11, e20, e21⟩ := idx_facts t
  funext j
  show out0_2 (iblk m c 0 t) (iblk m c 1 t) j
    = whole (V m c main_arg0) (V m c main_arg1) (((cfg0.win 2).blk t).view.emb j)
  refine block_entry (V m c main_arg0) (V m c main_arg1) (iblk m c 0 t) (iblk m c 1 t) t.val ?_ ?_ j _ ?_ ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 8192 + 1 * p.val = r.val; omega
    | ⟨1, _⟩ => show win0_0.index t (1 : Fin 2) * 20 + 1 * k.val = k.val; omega
  · intro p k r hr
    show V m c main_arg1 (((cfg0.win 1).blk t).view.emb (ix2 p k)) = V m c main_arg1 (ix2 r k)
    refine congrArg (V m c main_arg1) (funext fun a => Fin.ext ?_)
    match a with
    | ⟨0, _⟩ => show win0_1.index t (0 : Fin 2) * 8192 + 1 * p.val = r.val; omega
    | ⟨1, _⟩ => show win0_1.index t (1 : Fin 2) * 8 + 1 * k.val = k.val; omega
  · show win0_2.index t (0 : Fin 2) * 8192 + 1 * (j 0).val = t.val * 8192 + (j 0).val; omega
  · show win0_2.index t (1 : Fin 2) * 20 + 1 * (j 1).val = (j 1).val; omega

/-- An entry is in point t's block when its row is in band t. -/
theorem mem_blk (t : Fin cfg0.N) (i : S2097152x20.Idx) :
    i ∈ ((cfg0.win 2).blk t).view.set ↔ ∀ a : Fin 2, win0_2.index t a * S8192x20.size a ≤ (i a).val
      ∧ (i a).val < win0_2.index t a * S8192x20.size a + S8192x20.size a := by
  show i ∈ ((View.whole main_v0).slice (win0_2.rect t)).set ↔ _
  rw [View.set_slice_whole, Rect.mem_set_unit]
  exact Iff.rfl

/-- Every entry is in some point's block: row r in band r / 8192. -/
theorem cover (i : S2097152x20.Idx) :
    ∃ t : Fin cfg0.N, (cfg0.win 2).flush t = true ∧ i ∈ ((cfg0.win 2).blk t).view.set := by
  have hi0 : (i 0).val < 2097152 := (i 0).isLt
  have hi1 : (i 1).val < 20 := (i 1).isLt
  have hN : cfg0.N = 256 := rfl
  have hlt : (i 0).val / 8192 < cfg0.N := by rw [hN]; omega
  obtain ⟨-, -, -, -, e20, e21⟩ := idx_facts ⟨(i 0).val / 8192, hlt⟩
  refine ⟨⟨(i 0).val / 8192, hlt⟩, flush0_2 _, ?_⟩
  rw [mem_blk]
  intro a
  match a with
  | ⟨0, _⟩ =>
    show win0_2.index ⟨(i 0).val / 8192, hlt⟩ (0 : Fin 2) * 8192 ≤ (i 0).val
      ∧ (i 0).val < win0_2.index ⟨(i 0).val / 8192, hlt⟩ (0 : Fin 2) * 8192 + 8192
    rw [e20]; show (i 0).val / 8192 * 8192 ≤ (i 0).val ∧ (i 0).val < (i 0).val / 8192 * 8192 + 8192; omega
  | ⟨1, _⟩ =>
    show win0_2.index ⟨(i 0).val / 8192, hlt⟩ (1 : Fin 2) * 20 ≤ (i 1).val
      ∧ (i 1).val < win0_2.index ⟨(i 0).val / 8192, hlt⟩ (1 : Fin 2) * 20 + 20
    rw [e21]; omega

/-- The result array after the run is the whole result of the argument arrays as launched. -/
theorem final (c : Dev nD) :
    (dats m 0 c).arrAt 2 cfg0.N
      = whole (m ((c : Thread nD τ).loc main_arg0)) (m ((c : Thread nD τ).loc main_arg1)) :=
  (dats m 0 c).arrAt_eq_of_cover 2 (whole (V m c main_arg0) (V m c main_arg1)) (fun t _ => flushed_eq m c t) cover

/-- The kernel's run: it terminates with the result array at the whole result and the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelArray

end
-- ==== Proof.lean ====
/-
  Safety-constrained logits: a row-tiled kernel against its reference, equal over the extended reals.

  Both programs take logits x : 2097152 x 20 and vitals s : 2097152 x 8 and return logits adjusted row by row.
  From row r they form the softmax p of x r (maximum from −∞, shifted exponentials, their sum from 0, the quotient),
  three penalties pen a b = 1.5 if p a · p b > 0.05 else 0 for the column pairs (1, 2), (3, 11), (17, 18), and five
  threshold terms of the vitals s r 3, s r 1, s r 5. Every constant is the same f32 word in both programs, and the
  softmax is spelt with the same operations, so at the ideal instance the two programs compute the same penalties
  and terms; they differ only in how the terms reach their columns.

  The reference updates one column at a time: eleven accumulating scatters, each adding a vector of row values
  into one column (a fold over the 2097152 rows in which update r touches entry (r, c) only). The kernel, at each of
  256 grid points, takes a band of 8192 rows and stores logits + Σ of ten terms, each masked to its column by an
  iota-against-constant select, the sum started from 0, penalties negated as 0 − pen, the two column-1 vitals terms
  added before masking. A masked term is 0 off its column, so both are the same sum of the same terms in the same
  order up to association, 0 + a = a and 0 − a = −a: laws that hold on the extended reals without any finiteness,
  so the precondition is never opened.

  The three frames are the generated ones (the reference's is its generated run with the result dropped); the
  idealization rewrote nothing, so its conjunct is trivial.
-/
import proofs.«131227_j47399259079459_1_alg».proof.Defs
import proofs.«131227_j47399259079459_1_alg».proof.Proof.Gen.Kernel
import proofs.«131227_j47399259079459_1_alg».proof.Proof.Gen.Kernel.Skeleton
import proofs.«131227_j47399259079459_1_alg».proof.Proof.Gen.Kernel.Launch
import proofs.«131227_j47399259079459_1_alg».proof.Proof.Gen.Kernel.Points
import proofs.«131227_j47399259079459_1_alg».proof.Proof.Gen.Kernel.Frame
import proofs.«131227_j47399259079459_1_alg».proof.Proof.Gen.KernelIdeal
import proofs.«131227_j47399259079459_1_alg».proof.Proof.Gen.KernelIdeal.Skeleton
import proofs.«131227_j47399259079459_1_alg».proof.Proof.Gen.KernelIdeal.Launch
import proofs.«131227_j47399259079459_1_alg».proof.Proof.Gen.KernelIdeal.Points
import proofs.«131227_j47399259079459_1_alg».proof.Proof.Gen.KernelIdeal.Frame
import proofs.«131227_j47399259079459_1_alg».proof.Proof.Gen.ReferenceIdeal
import proofs.«131227_j47399259079459_1_alg».proof.Proof.Gen.Pre_finite_inputs
import proofs.«131227_j47399259079459_1_alg».proof.Proof.Gen.KernelIdeal.Value
import proofs.«131227_j47399259079459_1_alg».proof.Proof.Gen.ReferenceIdeal.Run
import proofs.«131227_j47399259079459_1_alg».proof.Proof.Gen.ReferenceIdeal.Read
import Idealize.ShloMosaic.Adequacy
import Idealize.ShloMosaic.Init

import proofs.«131227_j47399259079459_1_alg».proof.Proof.RefRow
import proofs.«131227_j47399259079459_1_alg».proof.Proof.KernelArray
import Idealize.ShloMosaic.Lib.ValueIdx

noncomputable section

namespace Cert.Proof

open Idealize.ShloMosaic Idealize.ShloMosaic.ValueIdx Idealize.ShloMosaic.TcCoe Idealize.SL.Sem

/-- The reference's result, as a function of the two argument arrays, is the kernel's: at entry (r, q) the
    reference is the one-column-at-a-time arrangement of row r, the kernel the masked arrangement, and the two
    arrangements agree. -/
theorem reference_eq_whole (a0 : FVec Ideal Cert.KernelIdeal.S2097152x20 .f32)
    (a1 : FVec Ideal Cert.KernelIdeal.S2097152x8 .f32) :
    Cert.ReferenceIdeal.Read.val_main_v81 (F := Ideal) a0 a1 = Cert.KernelArray.whole a0 a1 := by
  funext i
  refine ((congrArg (Cert.ReferenceIdeal.Read.val_main_v81 (F := Ideal) a0 a1) (eq_ix2 i)).trans
    (Cert.RefRow.result_ref a0 a1 (i 0) (i 1))).trans ?_
  exact (Cert.RowSpec.masked_eq_stepwise _ _ _).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, the kernel to the whole result of its arguments,
    the reference to its composed term of the same arrays, which is that whole result. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, (hagree c).1, (hagree c).2]
  exact reference_eq_whole _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
